-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 62
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x128, .f32⟩
  | .hbm, ⟨41, _⟩ => ⟨S_, .f32⟩
  | .hbm, ⟨42, _⟩ => ⟨S100000x128, .f32⟩
  | .hbm, ⟨43, _⟩ => ⟨S1700000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S1x128, .f32⟩
  | .hbm, ⟨61, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x1, .f32⟩
  | .local _ .vmem, ⟨13, _⟩ => ⟨S4000x1, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v29) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x128, .f32⟩
  | .hbm, ⟨41, _⟩ => ⟨S_, .f32⟩
  | .hbm, ⟨42, _⟩ => ⟨S100000x128, .f32⟩
  | .hbm, ⟨43, _⟩ => ⟨S1700000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibDenseLayer.lean ====
/-
  ONE DENSE LAYER ON A BLOCK OF ROWS, SET BESIDE THE SAME LAYER ON THE WHOLE ARRAY, READ AT ONE ENTRY.

  A dense layer sends a row x of K numbers to the row  q ↦ (Σ_k x_k · w(k, q)) + c(0, q),  optionally followed by the
  rectifier max(·, 0). It acts on every row by itself. So if row p of a block [n, K] is row r of an array [N, K], then
  entry (p, q) of the layer applied to the block is entry (r, q) of the layer applied to the array:

  * product_entry: the matrix unit's product into a zero accumulator, both operands narrowed on the way in, against
    the host's product (a change of float format is the identity on the extended reals, and both products are the
    sum over k of left (row, k) · right (k, q), in the same order);
  * hidden_entry: product, bias row broadcast down the rows, rectifier;
  * out_entry: product and bias row only.

  The bias is a 1 x b row on both sides; the block broadcasts it as a vector broadcast, the array along its two axes.
  Generic in the extents; a program's dimension numbers enter through an equation with the plain rows-by-columns
  record.
-/
import proofs.«128408_j52501680226728_1_alg».proof.Proof.LibBlocks

noncomputable section

open scoped BigOperators

namespace Cert.LibDenseLayer

open Idealize.ShloMosaic Idealize.ShloMosaic.ValueIdx

variable {n N K b : Nat}

/-- The product: entry (p, q) of block times matrix is entry (r, q) of array times matrix, when block row p is array
    row r. -/
theorem product_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (X : FVec Ideal ⟨2, ![n, K]⟩ .f32) (XX : FVec Ideal ⟨2, ![N, K]⟩ .f32) (w : FVec Ideal ⟨2, ![K, b]⟩ .f32)
    (p : Fin n) (r : Fin N) (h0 : ∀ k : Fin K, X (ix2 p k) = XX (ix2 r k)) (q : Fin b) :
    matmul dk none (truncf .bf16 X hlt) (truncf .bf16 w hlt) (constant ⟨2, ![n, b]⟩ .f32 0x00000000#32) (ix2 p q)
      = Host.dotGeneral dr none XX w (ix2 r q) := by
  show FloatOps.matmul dk none _ _ _ _ = FloatOps.dotGeneral dr none .single XX w (ix2 r q)
  rw [Cert.LibBlocks.matmul_plain_apply dk hdk, Cert.LibBlocks.dotGeneral_plain_apply dr hdr]
  refine Finset.sum_congr rfl fun k _ => ?_
  rw [truncf_apply, truncf_apply, h0 k]

/-- The bias row broadcast down the rows of a block, at entry (p, q): the row's entry q. -/
theorem bias_block_entry
    (hc1 : (⟨2, ![1, b]⟩ : Shape).ShapeCasts ⟨2, ![1, b]⟩) (hb : (⟨2, ![1, b]⟩ : Shape).Broadcasts ⟨2, ![n, b]⟩)
    (c : FVec Ideal ⟨2, ![1, b]⟩ .f32) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

/-- The bias row broadcast along both axes of the array, at entry (r, q): the row's entry q. -/
theorem bias_array_entry
    (hbd : (⟨2, ![1, b]⟩ : Shape).BroadcastsInDim ⟨2, ![N, b]⟩ ![0, 1])
    (c : FVec Ideal ⟨2, ![1, b]⟩ .f32) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

/-- Product and bias: entry (p, q) on the block is entry (r, q) on the array. -/
theorem out_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    addf (matmul dk none (truncf .bf16 X hlt) (truncf .bf16 w hlt) (constant ⟨2, ![n, b]⟩ .f32 0x00000000#32))
        (broadcastTo ⟨2, ![n, b]⟩ (shapeCast ⟨2, ![1, b]⟩ c hc1) hb) (ix2 p q)
      = addf (Host.dotGeneral dr none XX w) (broadcastInDim ⟨2, ![N, b]⟩ ![0, 1] hbd c) (ix2 r q) := by
  rw [addf_apply, addf_apply, product_entry dk hdk dr hdr hlt X XX w p r h0 q, bias_block_entry hc1 hb c p q,
    bias_array_entry hbd c r q]

/-- Product, bias and rectifier: entry (p, q) on the block is entry (r, q) on the array. -/
theorem hidden_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    maximumf (addf (matmul dk none (truncf .bf16 X hlt) (truncf .bf16 w hlt) (constant ⟨2, ![n, b]⟩ .f32 0x00000000#32))
          (broadcastTo ⟨2, ![n, b]⟩ (shapeCast ⟨2, ![1, b]⟩ c hc1) hb))
        (broadcast ⟨2, ![n, b]⟩ (Scalar.ofBits (F := Ideal) .f32 0x00000000#32)) (ix2 p q)
      = maximumf (addf (Host.dotGeneral dr none XX w) (broadcastInDim ⟨2, ![N, b]⟩ ![0, 1] hbd c))
        (broadcastInDim ⟨2, ![N, b]⟩ ![] hz (constant (F := Ideal) ⟨0, ![]⟩ .f32 0x00000000#32)) (ix2 r q) := by
  rw [maximumf_apply, maximumf_apply, out_entry dk hdk dr hdr hlt hc1 hb hbd X XX w c p r h0 q,
    broadcastInDim_apply ![] hz (constant (F := Ideal) ⟨0, ![]⟩ .f32 0x00000000#32) (ix2 r q) ix0 (fun a => a.elim0)]
  rfl

end Cert.LibDenseLayer

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.LayerEntry.lean ====
/-
  ONE GRAPH-CONVOLUTION LAYER ON A BLOCK OF ROWS, SET BESIDE THE SAME LAYER ON THE WHOLE ARRAY, READ AT ONE ENTRY.

  The layer sends row r of the aggregated features a, with the row's two degree factors nin(r) and nout(r), to

      q ↦ (Σ_k (a(r, k) · nin(r)) · w(k, q)) + c(0, q)          (plain form)
      q ↦ ((Σ_k (a(r, k) · nin(r)) · w(k, q)) + c(0, q)) · nout(r)   (scaled form: the next layer's source factor folded in).

  Every row is treated by itself, so if row p of a block [n, K] is row r of the array [N, K], and the block's degree
  columns hold at p what the array's hold at r, entry (p, q) of the layer on the block is entry (r, q) of the layer on the
  array. The factor columns are [·, 1] arrays; the block repeats a column along its rows by a vector broadcast, the array
  by a broadcast along its two axes; both read row's one entry.
-/
import proofs.«128408_j52501680226728_1_alg».proof.Proof.LibDenseLayer
import proofs.«128408_j52501680226728_1_alg».proof.Proof.LibColumn

noncomputable section

open scoped BigOperators

namespace Cert.Proof.NormLayer

open Idealize.ShloMosaic Idealize.ShloMosaic.ValueIdx

variable {n N K b : Nat}

/-- An [N, 1] column broadcast along both axes of [N, b], at entry (r, q): the column's entry in row r. -/
theorem col_array_entry (hbd : (⟨2, ![N, 1]⟩ : Shape).BroadcastsInDim ⟨2, ![N, b]⟩ ![0, 1])
    (v : FVec Ideal ⟨2, ![N, 1]⟩ .f32) (r : Fin N) (q : Fin b) :
    broadcastInDim ⟨2, ![N, b]⟩ ![0, 1] hbd v (ix2 r q) = v (ix2 r (0 : Fin 1)) :=
  broadcastInDim_apply ![0, 1] hbd v (ix2 r q) (ix2 r (0 : Fin 1)) (fun a => by
    match a with
    | ⟨0, _⟩ =>
      show r.val = if N = 1 then 0 else r.val
      have := r.isLt
      split_ifs <;> omega
    | ⟨1, _⟩ => rfl)

/-- An [n, 1] column of a block repeated along the block's rows, at entry (p, q): the column's entry in row p. -/
theorem col_block_entry (hc : (⟨2, ![n, 1]⟩ : Shape).ShapeCasts ⟨2, ![n, 1]⟩)
    (hb : (⟨2, ![n, 1]⟩ : Shape).Broadcasts ⟨2, ![n, b]⟩) (v : FVec Ideal ⟨2, ![n, 1]⟩ .f32) (p : Fin n) (q : Fin b) :
    broadcastTo ⟨2, ![n, b]⟩ (shapeCast ⟨2, ![n, 1]⟩ v hc) hb (ix2 p q) = v (ix2 p (0 : Fin 1)) := by
  rw [shapeCast_self]
  exact Cert.Proof.Column.broadcastTo_a1_ab_apply v hb p q

/-- The rows scaled by the destination factor: entry (p, k) on the block is entry (r, k) on the array. -/
theorem scaled_rows_entry
    (hc0 : (⟨2, ![n, K]⟩ : Shape).ShapeCasts ⟨2, ![n, K]⟩) (hc1 : (⟨2, ![n, 1]⟩ : Shape).ShapeCasts ⟨2, ![n, 1]⟩)
    (hb1 : (⟨2, ![n, 1]⟩ : Shape).Broadcasts ⟨2, ![n, K]⟩)
    (hbd1 : (⟨2, ![N, 1]⟩ : Shape).BroadcastsInDim ⟨2, ![N, K]⟩ ![0, 1])
    (x0 : FVec Ideal ⟨2, ![n, K]⟩ .f32) (x1 : FVec Ideal ⟨2, ![n, 1]⟩ .f32)
    (a : FVec Ideal ⟨2, ![N, K]⟩ .f32) (nin : FVec Ideal ⟨2, ![N, 1]⟩ .f32)
    (p : Fin n) (r : Fin N) (h0 : ∀ k : Fin K, x0 (ix2 p k) = a (ix2 r k)) (h1 : x1 (ix2 p (0 : Fin 1)) = nin (ix2 r (0 : Fin 1)))
    (k : Fin K) :
    mulf (shapeCast ⟨2, ![n, K]⟩ x0 hc0) (broadcastTo ⟨2, ![n, K]⟩ (shapeCast ⟨2, ![n, 1]⟩ x1 hc1) hb1) (ix2 p k)
      = mulf a (broadcastInDim ⟨2, ![N, K]⟩ ![0, 1] hbd1 nin) (ix2 r k) := by
  rw [mulf_apply, mulf_apply, shapeCast_self, col_block_entry hc1 hb1 x1 p k, col_array_entry hbd1 nin r k, h0 k, h1]

/-- The plain layer: entry (p, q) on the block is entry (r, q) on the array. -/
theorem layer_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc0 : (⟨2, ![n, K]⟩ : Shape).ShapeCasts ⟨2, ![n, K]⟩) (hc1 : (⟨2, ![n, 1]⟩ : Shape).ShapeCasts ⟨2, ![n, 1]⟩)
    (hb1 : (⟨2, ![n, 1]⟩ : Shape).Broadcasts ⟨2, ![n, K]⟩)
    (hbd1 : (⟨2, ![N, 1]⟩ : Shape).BroadcastsInDim ⟨2, ![N, K]⟩ ![0, 1])
    (hcr : (⟨2, ![1, b]⟩ : Shape).ShapeCasts ⟨2, ![1, b]⟩) (hbr : (⟨2, ![1, b]⟩ : Shape).Broadcasts ⟨2, ![n, b]⟩)
    (hbdr : (⟨2, ![1, b]⟩ : Shape).BroadcastsInDim ⟨2, ![N, b]⟩ ![0, 1])
    (x0 : FVec Ideal ⟨2, ![n, K]⟩ .f32) (x1 : FVec Ideal ⟨2, ![n, 1]⟩ .f32)
    (a : FVec Ideal ⟨2, ![N, K]⟩ .f32) (nin : FVec Ideal ⟨2, ![N, 1]⟩ .f32)
    (w : FVec Ideal ⟨2, ![K, b]⟩ .f32) (c : FVec Ideal ⟨2, ![1, b]⟩ .f32)
    (p : Fin n) (r : Fin N) (h0 : ∀ k : Fin K, x0 (ix2 p k) = a (ix2 r k)) (h1 : x1 (ix2 p (0 : Fin 1)) = nin (ix2 r (0 : Fin 1)))
    (q : Fin b) :
    addf (matmul dk none
          (truncf .bf16 (mulf (shapeCast ⟨2, ![n, K]⟩ x0 hc0) (broadcastTo ⟨2, ![n, K]⟩ (shapeCast ⟨2, ![n, 1]⟩ x1 hc1) hb1)) hlt)
          (truncf .bf16 w hlt) (constant ⟨2, ![n, b]⟩ .f32 0x00000000#32))
        (broadcastTo ⟨2, ![n, b]⟩ (shapeCast ⟨2, ![1, b]⟩ c hcr) hbr) (ix2 p q)
      = addf (Host.dotGeneral dr none (mulf a (broadcastInDim ⟨2, ![N, K]⟩ ![0, 1] hbd1 nin)) w)
          (broadcastInDim ⟨2, ![N, b]⟩ ![0, 1] hbdr c) (ix2 r q) :=
  Cert.LibDenseLayer.out_entry dk hdk dr hdr hlt hcr hbr hbdr _ _ w c p r
    (scaled_rows_entry hc0 hc1 hb1 hbd1 x0 x1 a nin p r h0 h1) q

/-- The scaled layer: the plain layer's entry times the source factor of its row, on the block as on the array. -/
theorem layer_scaled_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc0 : (⟨2, ![n, K]⟩ : Shape).ShapeCasts ⟨2, ![n, K]⟩) (hc1 : (⟨2, ![n, 1]⟩ : Shape).ShapeCasts ⟨2, ![n, 1]⟩)
    (hb1 : (⟨2, ![n, 1]⟩ : Shape).Broadcasts ⟨2, ![n, K]⟩)
    (hbd1 : (⟨2, ![N, 1]⟩ : Shape).BroadcastsInDim ⟨2, ![N, K]⟩ ![0, 1])
    (hcr : (⟨2, ![1, b]⟩ : Shape).ShapeCasts ⟨2, ![1, b]⟩) (hbr : (⟨2, ![1, b]⟩ : Shape).Broadcasts ⟨2, ![n, b]⟩)
    (hbdr : (⟨2, ![1, b]⟩ : Shape).BroadcastsInDim ⟨2, ![N, b]⟩ ![0, 1])
    (hb2 : (⟨2, ![n, 1]⟩ : Shape).Broadcasts ⟨2, ![n, b]⟩)
    (hbd2 : (⟨2, ![N, 1]⟩ : Shape).BroadcastsInDim ⟨2, ![N, b]⟩ ![0, 1])
    (x0 : FVec Ideal ⟨2, ![n, K]⟩ .f32) (x1 x2 : FVec Ideal ⟨2, ![n, 1]⟩ .f32)
    (a : FVec Ideal ⟨2, ![N, K]⟩ .f32) (nin nout : FVec Ideal ⟨2, ![N, 1]⟩ .f32)
    (w : FVec Ideal ⟨2, ![K, b]⟩ .f32) (c : FVec Ideal ⟨2, ![1, b]⟩ .f32)
    (p : Fin n) (r : Fin N) (h0 : ∀ k : Fin K, x0 (ix2 p k) = a (ix2 r k)) (h1 : x1 (ix2 p (0 : Fin 1)) = nin (ix2 r (0 : Fin 1)))
    (h2 : x2 (ix2 p (0 : Fin 1)) = nout (ix2 r (0 : Fin 1))) (q : Fin b) :
    mulf (addf (matmul dk none
            (truncf .bf16 (mulf (shapeCast ⟨2, ![n, K]⟩ x0 hc0) (broadcastTo ⟨2, ![n, K]⟩ (shapeCast ⟨2, ![n, 1]⟩ x1 hc1) hb1)) hlt)
            (truncf .bf16 w hlt) (constant ⟨2, ![n, b]⟩ .f32 0x00000000#32))
          (broadcastTo ⟨2, ![n, b]⟩ (shapeCast ⟨2, ![1, b]⟩ c hcr) hbr))
        (broadcastTo ⟨2, ![n, b]⟩ (shapeCast ⟨2, ![n, 1]⟩ x2 hc1) hb2) (ix2 p q)
      = mulf (addf (Host.dotGeneral dr none (mulf a (broadcastInDim ⟨2, ![N, K]⟩ ![0, 1] hbd1 nin)) w)
            (broadcastInDim ⟨2, ![N, b]⟩ ![0, 1] hbdr c))
          (broadcastInDim ⟨2, ![N, b]⟩ ![0, 1] hbd2 nout) (ix2 r q) := by
  rw [mulf_apply, mulf_apply,
    layer_entry dk hdk dr hdr hlt hc0 hc1 hb1 hbd1 hcr hbr hbdr x0 x1 a nin w c p r h0 h1 q,
    col_block_entry hc1 hb2 x2 p q, col_array_entry hbd2 nout r q, h2]

end Cert.Proof.NormLayer

end
-- ==== Proof.KLayer1.lean ====
/-
  LAYER 1 OF THE GRAPH CONVOLUTION, FROM ITS 25 ROW BLOCKS TO THE WHOLE NODE ARRAY.

  The 100000 nodes are worked in 25 blocks of 4000 consecutive rows. At block t the body reads rows 4000 t … 4000 t + 3999 of
  the aggregated features and of the degree-factor columns, the whole weight matrix and the whole bias row, and writes rows
  4000 t … 4000 t + 3999 of the result. Each result row depends on its own input row only, so what block t writes is block t of
  ONE whole-array function, `layerScaled`: row r of the aggregated features scaled by the destination factor of r, multiplied
  by the weight matrix, the bias row added, the sum scaled by the source factor of r. The 25 blocks tile the array (row r lies in block
  r / 4000), so after the last block the array holds `layerScaled` of the arrays the region was entered with.
-/
import proofs.«128408_j52501680226728_1_alg».proof.Proof.Gen.KernelIdeal.Frame
import proofs.«128408_j52501680226728_1_alg».proof.Proof.LayerEntry
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LayerOne

open Cert.KernelIdeal Cert.KernelIdeal.Gen

theorem hz : (![0, 0] : Fin 2 → Nat) = fun _ => 0 := funext fun a => by fin_cases a <;> rfl

/-- A 1 x 128 row broadcasts along both axes of the node array. -/
theorem bcastRow : S1x128.BroadcastsInDim S100000x128 (![0, 1] : Fin 2 → Fin S100000x128.rank) := by decide

/-- The first layer on the whole node array: each row of the aggregated features times its destination factor, times the
    weight matrix, plus the bias row, times the row's source factor (the next layer's pre-scaling folded in). -/
def layerScaled (a : FVec Ideal S100000x128 .f32) (nin nout : FVec Ideal S100000x1 .f32) (w : FVec Ideal S128x128 .f32)
    (brow : FVec Ideal S1x128 .f32) : FVec Ideal S100000x128 .f32 :=
  mulf (addf (Host.dotGeneral (DotDims.plain 100000 128 128) none
        (mulf a (broadcastInDim S100000x128 ![0, 1] Gen.bcast_S100000x1_S100000x128_0_1 nin)) w)
      (broadcastInDim S100000x128 ![0, 1] bcastRow brow))
    (broadcastInDim S100000x128 ![0, 1] Gen.bcast_S100000x1_S100000x128_0_1 nout)

/-- The body's stored value at entry (p, q) of a block is `layerScaled` at entry (r, q) of the array, when row p of the block's
    inputs is row r of the arrays'. -/
theorem pay_entry (x0 : Vec Ideal S4000x128 .f32) (x1 x2 : Vec Ideal S4000x1 .f32) (w : Vec Ideal S128x128 .f32)
    (cb : Vec Ideal S1x128 .f32) (a : FVec Ideal S100000x128 .f32) (nin nout : FVec Ideal S100000x1 .f32)
    (p : Fin 4000) (r : Fin 100000) (q : Fin 128)
    (h0 : ∀ k : Fin 128, x0 (ix2 p k) = a (ix2 r k)) (h1 : x1 (ix2 p (0 : Fin 1)) = nin (ix2 r (0 : Fin 1)))
    (h2 : x2 (ix2 p (0 : Fin 1)) = nout (ix2 r (0 : Fin 1))) :
    k0_pay1 x0 x1 w cb x2 (ix2 p q) = layerScaled a nin nout w cb (ix2 r q) := by
  unfold k0_pay1 layerScaled
  exact Cert.Proof.NormLayer.layer_scaled_entry dot_S4000x128_S128x128_S4000x128_1_0_0_1_n_n rfl (DotDims.plain 100000 128 128) rfl
    Gen.bitsLt_bf16_f32 Gen.shapeCasts_S4000x128_S4000x128 Gen.shapeCasts_S4000x1_S4000x1 Gen.broadcasts_S4000x1_S4000x128
    Gen.bcast_S100000x1_S100000x128_0_1 Gen.shapeCasts_S1x128_S1x128 Gen.broadcasts_S1x128_S4000x128 bcastRow
    Gen.broadcasts_S4000x1_S4000x128 Gen.bcast_S100000x1_S100000x128_0_1 x0 x1 x2 a nin nout w cb p r h0 h1 h2 q

/-- The printed index maps over the grid: the row-blocked windows are at block row t, column block 0; the weight matrix and
    the bias row are always at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_5.index t (0 : Fin 2) = t.val ∧ win0_5.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

variable (V : (c : Dev nD) → (b : Ref sig .tc) → Buf (Elt Ideal) ((c : Thread nD τ).loc b))

/-- Row p of block t of the aggregated features is row 4000 t + p of the array. -/
theorem blk_rows (c : Dev nD) (t : Fin cfg0.N) (p : Fin 4000) (r : Fin 100000) (hr : r.val = 4000 * t.val + p.val) (k : Fin 128) :
    (iblk0 V c 0 t : Vec Ideal S4000x128 .f32) (ix2 p k) = (V c main_v29 : FVec Ideal S100000x128 .f32) (ix2 r k) := by
  obtain ⟨a00, a01, a10, a11, a20, a21, o0, o1, w0, w1, b0, b1⟩ := idx_facts t
  unfold iblk0
  rw [View.read_apply]
  show V c main_v29 _ = V c main_v29 _
  refine congrArg _ (funext fun a => Fin.ext ?_)
  match a with
  | ⟨0, _⟩ => show win0_0.index t (0 : Fin 2) * 4000 + 1 * p.val = r.val; rw [a00, hr]; omega
  | ⟨1, _⟩ => show win0_0.index t (1 : Fin 2) * 128 + 1 * k.val = k.val; rw [a01]; omega

/-- Row p of block t of the destination-factor column is row 4000 t + p of the column. -/
theorem blk_col1 (c : Dev nD) (t : Fin cfg0.N) (p : Fin 4000) (r : Fin 100000) (hr : r.val = 4000 * t.val + p.val) :
    (iblk0 V c 1 t : Vec Ideal S4000x1 .f32) (ix2 p (0 : Fin 1)) = (V c main_v17 : FVec Ideal S100000x1 .f32) (ix2 r (0 : Fin 1)) := by
  obtain ⟨a00, a01, a10, a11, a20, a21, o0, o1, w0, w1, b0, b1⟩ := idx_facts t
  unfold iblk0
  rw [View.read_apply]
  show V c main_v17 _ = V c main_v17 _
  refine congrArg _ (funext fun a => Fin.ext ?_)
  match a with
  | ⟨0, _⟩ => show win0_1.index t (0 : Fin 2) * 4000 + 1 * p.val = r.val; rw [a10, hr]; omega
  | ⟨1, _⟩ => show win0_1.index t (1 : Fin 2) * 1 + 1 * 0 = 0; rw [a11]

/-- Row p of block t of the source-factor column is row 4000 t + p of the column. -/
theorem blk_col2 (c : Dev nD) (t : Fin cfg0.N) (p : Fin 4000) (r : Fin 100000) (hr : r.val = 4000 * t.val + p.val) :
    (iblk0 V c 2 t : Vec Ideal S4000x1 .f32) (ix2 p (0 : Fin 1)) = (V c main_v13 : FVec Ideal S100000x1 .f32) (ix2 r (0 : Fin 1)) := by
  obtain ⟨a00, a01, a10, a11, a20, a21, o0, o1, w0, w1, b0, b1⟩ := idx_facts t
  unfold iblk0
  rw [View.read_apply]
  show V c main_v13 _ = V c main_v13 _
  refine congrArg _ (funext fun a => Fin.ext ?_)
  match a with
  | ⟨0, _⟩ => show win0_2.index t (0 : Fin 2) * 4000 + 1 * p.val = r.val; rw [a20, hr]; omega
  | ⟨1, _⟩ => show win0_2.index t (1 : Fin 2) * 1 + 1 * 0 = 0; rw [a21]

/-- The weight window's one block is the whole matrix. -/
theorem blk_weights (c : Dev nD) (t : Fin cfg0.N) : (iblk0 V c 3 t : Vec Ideal S128x128 .f32) = (V c main_arg3 : FVec Ideal S128x128 .f32) := by
  obtain ⟨a00, a01, a10, a11, a20, a21, o0, o1, w0, w1, b0, b1⟩ := idx_facts t
  funext y
  unfold iblk0
  rw [View.read_apply]
  show V c main_arg3 _ = V c main_arg3 _
  refine congrArg _ (funext fun a => Fin.ext ?_)
  match a with
  | ⟨0, _⟩ => show win0_3.index t (0 : Fin 2) * 128 + 1 * (y 0).val = (y 0).val; rw [w0]; omega
  | ⟨1, _⟩ => show win0_3.index t (1 : Fin 2) * 128 + 1 * (y 1).val = (y 1).val; rw [w1]; omega

/-- The bias window's one block is the whole row. -/
theorem blk_bias (c : Dev nD) (t : Fin cfg0.N) : (iblk0 V c 4 t : Vec Ideal S1x128 .f32) = (V c main_v30 : FVec Ideal S1x128 .f32) := by
  obtain ⟨a00, a01, a10, a11, a20, a21, o0, o1, w0, w1, b0, b1⟩ := idx_facts t
  funext y
  unfold iblk0
  rw [View.read_apply]
  show V c main_v30 _ = V c main_v30 _
  refine congrArg _ (funext fun a => Fin.ext ?_)
  match a with
  | ⟨0, _⟩ => show win0_4.index t (0 : Fin 2) * 1 + 1 * (y 0).val = (y 0).val; rw [b0]; omega
  | ⟨1, _⟩ => show win0_4.index t (1 : Fin 2) * 128 + 1 * (y 1).val = (y 1).val; rw [b1]; omega

/-- WHAT BLOCK t WRITES BACK is block t of `layerScaled` of the arrays the region was entered with. -/
theorem flushed_eq (c : Dev nD) (t : Fin cfg0.N) :
    (dat0 V c).flushed 5 t = ((cfg0.win 5).blk t).view.read (Elt Ideal)
      (layerScaled (V c main_v29) (V c main_v17) (V c main_v13) (V c main_arg3) (V c main_v30)) := by
  obtain ⟨a00, a01, a10, a11, a20, a21, o0, o1, w0, w1, b0, b1⟩ := idx_facts t
  show (cfg0.win 5).cut (grid0.coords t) ((dat0 V c).after 5 t) = _
  rw [after0_5]
  unfold out0_5
  rw [View.canon_unit_zero hz]
  simp only [View.ld_unit_zero (S := S4000x128) hz, View.ld_unit_zero (S := S4000x1) hz, View.ld_unit_zero (S := S128x128) hz,
    View.ld_unit_zero (S := S1x128) hz]
  rw [blk_weights V c t, blk_bias V c t]
  funext j
  obtain ⟨p, q, rfl⟩ : ∃ (p : Fin 4000) (q : Fin 128), j = ix2 p q := ⟨j 0, j 1, eq_ix2 j⟩
  have hr : 4000 * t.val + p.val < 100000 := by
    have ht : t.val < 25 := by have h := t.isLt; have hN : cfg0.N = 25 := N_0; omega
    have := p.isLt; omega
  rw [View.read_apply]
  have hemb : ((cfg0.win 5).blk t).view.emb (ix2 p q) = (ix2 (⟨4000 * t.val + p.val, hr⟩ : Fin 100000) q : S100000x128.Idx) := by
    funext a; apply Fin.ext
    match a with
    | ⟨0, _⟩ => show win0_5.index t (0 : Fin 2) * 4000 + 1 * p.val = 4000 * t.val + p.val; rw [o0]; omega
    | ⟨1, _⟩ => show win0_5.index t (1 : Fin 2) * 128 + 1 * q.val = q.val; rw [o1]; omega
  rw [hemb]
  exact pay_entry (iblk0 V c 0 t) (iblk0 V c 1 t) (iblk0 V c 2 t) (V c main_arg3) (V c main_v30) (V c main_v29) (V c main_v17) (V c main_v13) p ⟨4000 * t.val + p.val, hr⟩ q
    (fun k => blk_rows V c t p _ rfl k) (blk_col1 V c t p _ rfl) (blk_col2 V c t p _ rfl)

/-- An index of the array is in block t iff each coordinate is in the block's range on its axis. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v31).slice (win0_5.rect t)).set ↔ _
  rw [View.set_slice_whole, Rect.mem_set_unit]
  exact Iff.rfl

/-- Every row lies in some block: row r in block r / 4000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_5 _, ?_⟩
  rw [mem_blk]
  obtain ⟨a00, a01, a10, a11, a20, a21, o0, o1, w0, w1, b0, b1⟩ := idx_facts ⟨(i 0).val / 4000, by rw [hN]; omega⟩
  intro a
  match a with
  | ⟨0, _⟩ =>
    show win0_5.index _ (0 : Fin 2) * 4000 ≤ (i 0).val ∧ (i 0).val < win0_5.index _ (0 : Fin 2) * 4000 + 4000
    rw [o0]; show (i 0).val / 4000 * 4000 ≤ (i 0).val ∧ (i 0).val < (i 0).val / 4000 * 4000 + 4000; omega
  | ⟨1, _⟩ =>
    show win0_5.index _ (1 : Fin 2) * 128 ≤ (i 1).val ∧ (i 1).val < win0_5.index _ (1 : Fin 2) * 128 + 128
    rw [o1]; omega

/-- THE ARRAY after the region: `layerScaled` of the arrays the region was entered with. -/
theorem array_eq (c : Dev nD) : (dat0 V c).arrAt 5 cfg0.N = layerScaled (V c main_v29) (V c main_v17) (V c main_v13) (V c main_arg3) (V c main_v30) :=
  (dat0 V c).arrAt_eq_of_cover 5 _ (fun t _ => flushed_eq V c t) covered

end Cert.KernelIdeal.LayerOne

end
-- ==== Proof.KLayer2.lean ====
/-
  LAYER 2 OF THE GRAPH CONVOLUTION, FROM ITS 25 ROW BLOCKS TO THE WHOLE NODE ARRAY.

  The 100000 nodes are worked in 25 blocks of 4000 consecutive rows. At block t the body reads rows 4000 t … 4000 t + 3999 of
  the aggregated features and of the degree-factor column, the whole weight matrix and the whole bias row, and writes rows
  4000 t … 4000 t + 3999 of the result. Each result row depends on its own input row only, so what block t writes is block t of
  ONE whole-array function, `layerPlain`: row r of the aggregated features scaled by the destination factor of r, multiplied
  by the weight matrix, the bias row added. The 25 blocks tile the array (row r lies in block
  r / 4000), so after the last block the array holds `layerPlain` of the arrays the region was entered with.
-/
import proofs.«128408_j52501680226728_1_alg».proof.Proof.Gen.KernelIdeal.Frame
import proofs.«128408_j52501680226728_1_alg».proof.Proof.LayerEntry
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LayerTwo

open Cert.KernelIdeal Cert.KernelIdeal.Gen

theorem hz : (![0, 0] : Fin 2 → Nat) = fun _ => 0 := funext fun a => by fin_cases a <;> rfl

/-- A 1 x 128 row broadcasts along both axes of the node array. -/
theorem bcastRow : S1x128.BroadcastsInDim S100000x128 (![0, 1] : Fin 2 → Fin S100000x128.rank) := by decide

/-- The second layer on the whole node array: each row of the aggregated features times its destination factor, times the
    weight matrix, plus the bias row. -/
def layerPlain (a : FVec Ideal S100000x128 .f32) (nin : FVec Ideal S100000x1 .f32) (w : FVec Ideal S128x128 .f32)
    (brow : FVec Ideal S1x128 .f32) : FVec Ideal S100000x128 .f32 :=
  addf (Host.dotGeneral (DotDims.plain 100000 128 128) none
      (mulf a (broadcastInDim S100000x128 ![0, 1] Gen.bcast_S100000x1_S100000x128_0_1 nin)) w)
    (broadcastInDim S100000x128 ![0, 1] bcastRow brow)

/-- The body's stored value at entry (p, q) of a block is `layerPlain` at entry (r, q) of the array, when row p of the block's
    inputs is row r of the arrays'. -/
theorem pay_entry (x0 : Vec Ideal S4000x128 .f32) (x1 : Vec Ideal S4000x1 .f32) (w : Vec Ideal S128x128 .f32)
    (cb : Vec Ideal S1x128 .f32) (a : FVec Ideal S100000x128 .f32) (nin : FVec Ideal S100000x1 .f32)
    (p : Fin 4000) (r : Fin 100000) (q : Fin 128)
    (h0 : ∀ k : Fin 128, x0 (ix2 p k) = a (ix2 r k)) (h1 : x1 (ix2 p (0 : Fin 1)) = nin (ix2 r (0 : Fin 1))) :
    k1_pay1 x0 x1 w cb (ix2 p q) = layerPlain a nin w cb (ix2 r q) := by
  unfold k1_pay1 layerPlain
  exact Cert.Proof.NormLayer.layer_entry dot_S4000x128_S128x128_S4000x128_1_0_0_1_n_n rfl (DotDims.plain 100000 128 128) rfl
    Gen.bitsLt_bf16_f32 Gen.shapeCasts_S4000x128_S4000x128 Gen.shapeCasts_S4000x1_S4000x1 Gen.broadcasts_S4000x1_S4000x128
    Gen.bcast_S100000x1_S100000x128_0_1 Gen.shapeCasts_S1x128_S1x128 Gen.broadcasts_S1x128_S4000x128 bcastRow
    x0 x1 a nin w cb p r h0 h1 q

/-- The printed index maps over the grid: the row-blocked windows are at block row t, column block 0; the weight matrix and
    the bias row are always at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_4.index t (0 : Fin 2) = t.val ∧ win1_4.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

variable (V : (c : Dev nD) → (b : Ref sig .tc) → Buf (Elt Ideal) ((c : Thread nD τ).loc b))

/-- Row p of block t of the aggregated features is row 4000 t + p of the array. -/
theorem blk_rows (c : Dev nD) (t : Fin cfg1.N) (p : Fin 4000) (r : Fin 100000) (hr : r.val = 4000 * t.val + p.val) (k : Fin 128) :
    (iblk1 V c 0 t : Vec Ideal S4000x128 .f32) (ix2 p k) = (V c main_v41 : FVec Ideal S100000x128 .f32) (ix2 r k) := by
  obtain ⟨a00, a01, a10, a11, o0, o1, w0, w1, b0, b1⟩ := idx_facts t
  unfold iblk1
  rw [View.read_apply]
  show V c main_v41 _ = V c main_v41 _
  refine congrArg _ (funext fun a => Fin.ext ?_)
  match a with
  | ⟨0, _⟩ => show win1_0.index t (0 : Fin 2) * 4000 + 1 * p.val = r.val; rw [a00, hr]; omega
  | ⟨1, _⟩ => show win1_0.index t (1 : Fin 2) * 128 + 1 * k.val = k.val; rw [a01]; omega

/-- Row p of block t of the destination-factor column is row 4000 t + p of the column. -/
theorem blk_col1 (c : Dev nD) (t : Fin cfg1.N) (p : Fin 4000) (r : Fin 100000) (hr : r.val = 4000 * t.val + p.val) :
    (iblk1 V c 1 t : Vec Ideal S4000x1 .f32) (ix2 p (0 : Fin 1)) = (V c main_v17 : FVec Ideal S100000x1 .f32) (ix2 r (0 : Fin 1)) := by
  obtain ⟨a00, a01, a10, a11, o0, o1, w0, w1, b0, b1⟩ := idx_facts t
  unfold iblk1
  rw [View.read_apply]
  show V c main_v17 _ = V c main_v17 _
  refine congrArg _ (funext fun a => Fin.ext ?_)
  match a with
  | ⟨0, _⟩ => show win1_1.index t (0 : Fin 2) * 4000 + 1 * p.val = r.val; rw [a10, hr]; omega
  | ⟨1, _⟩ => show win1_1.index t (1 : Fin 2) * 1 + 1 * 0 = 0; rw [a11]

/-- The weight window's one block is the whole matrix. -/
theorem blk_weights (c : Dev nD) (t : Fin cfg1.N) : (iblk1 V c 2 t : Vec Ideal S128x128 .f32) = (V c main_arg5 : FVec Ideal S128x128 .f32) := by
  obtain ⟨a00, a01, a10, a11, o0, o1, w0, w1, b0, b1⟩ := idx_facts t
  funext y
  unfold iblk1
  rw [View.read_apply]
  show V c main_arg5 _ = V c main_arg5 _
  refine congrArg _ (funext fun a => Fin.ext ?_)
  match a with
  | ⟨0, _⟩ => show win1_2.index t (0 : Fin 2) * 128 + 1 * (y 0).val = (y 0).val; rw [w0]; omega
  | ⟨1, _⟩ => show win1_2.index t (1 : Fin 2) * 128 + 1 * (y 1).val = (y 1).val; rw [w1]; omega

/-- The bias window's one block is the whole row. -/
theorem blk_bias (c : Dev nD) (t : Fin cfg1.N) : (iblk1 V c 3 t : Vec Ideal S1x128 .f32) = (V c main_v42 : FVec Ideal S1x128 .f32) := by
  obtain ⟨a00, a01, a10, a11, o0, o1, w0, w1, b0, b1⟩ := idx_facts t
  funext y
  unfold iblk1
  rw [View.read_apply]
  show V c main_v42 _ = V c main_v42 _
  refine congrArg _ (funext fun a => Fin.ext ?_)
  match a with
  | ⟨0, _⟩ => show win1_3.index t (0 : Fin 2) * 1 + 1 * (y 0).val = (y 0).val; rw [b0]; omega
  | ⟨1, _⟩ => show win1_3.index t (1 : Fin 2) * 128 + 1 * (y 1).val = (y 1).val; rw [b1]; omega

/-- WHAT BLOCK t WRITES BACK is block t of `layerPlain` of the arrays the region was entered with. -/
theorem flushed_eq (c : Dev nD) (t : Fin cfg1.N) :
    (dat1 V c).flushed 4 t = ((cfg1.win 4).blk t).view.read (Elt Ideal)
      (layerPlain (V c main_v41) (V c main_v17) (V c main_arg5) (V c main_v42)) := by
  obtain ⟨a00, a01, a10, a11, o0, o1, w0, w1, b0, b1⟩ := idx_facts t
  show (cfg1.win 4).cut (grid1.coords t) ((dat1 V c).after 4 t) = _
  rw [after1_4]
  unfold out1_4
  rw [View.canon_unit_zero hz]
  simp only [View.ld_unit_zero (S := S4000x128) hz, View.ld_unit_zero (S := S4000x1) hz, View.ld_unit_zero (S := S128x128) hz,
    View.ld_unit_zero (S := S1x128) hz]
  rw [blk_weights V c t, blk_bias V c t]
  funext j
  obtain ⟨p, q, rfl⟩ : ∃ (p : Fin 4000) (q : Fin 128), j = ix2 p q := ⟨j 0, j 1, eq_ix2 j⟩
  have hr : 4000 * t.val + p.val < 100000 := by
    have ht : t.val < 25 := by have h := t.isLt; have hN : cfg1.N = 25 := N_1; omega
    have := p.isLt; omega
  rw [View.read_apply]
  have hemb : ((cfg1.win 4).blk t).view.emb (ix2 p q) = (ix2 (⟨4000 * t.val + p.val, hr⟩ : Fin 100000) q : S100000x128.Idx) := by
    funext a; apply Fin.ext
    match a with
    | ⟨0, _⟩ => show win1_4.index t (0 : Fin 2) * 4000 + 1 * p.val = 4000 * t.val + p.val; rw [o0]; omega
    | ⟨1, _⟩ => show win1_4.index t (1 : Fin 2) * 128 + 1 * q.val = q.val; rw [o1]; omega
  rw [hemb]
  exact pay_entry (iblk1 V c 0 t) (iblk1 V c 1 t) (V c main_arg5) (V c main_v42) (V c main_v41) (V c main_v17) p ⟨4000 * t.val + p.val, hr⟩ q
    (fun k => blk_rows V c t p _ rfl k) (blk_col1 V c t p _ rfl)

/-- An index of the array is in block t iff each coordinate is in the block's range on its axis. -/
theorem mem_blk (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v43).slice (win1_4.rect t)).set ↔ _
  rw [View.set_slice_whole, Rect.mem_set_unit]
  exact Iff.rfl

/-- Every row lies in some block: row r in block r / 4000. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 25 := N_1
  refine ⟨⟨(i 0).val / 4000, by rw [hN]; omega⟩, flush1_4 _, ?_⟩
  rw [mem_blk]
  obtain ⟨a00, a01, a10, a11, o0, o1, w0, w1, b0, b1⟩ := idx_facts ⟨(i 0).val / 4000, by rw [hN]; omega⟩
  intro a
  match a with
  | ⟨0, _⟩ =>
    show win1_4.index _ (0 : Fin 2) * 4000 ≤ (i 0).val ∧ (i 0).val < win1_4.index _ (0 : Fin 2) * 4000 + 4000
    rw [o0]; show (i 0).val / 4000 * 4000 ≤ (i 0).val ∧ (i 0).val < (i 0).val / 4000 * 4000 + 4000; omega
  | ⟨1, _⟩ =>
    show win1_4.index _ (1 : Fin 2) * 128 ≤ (i 1).val ∧ (i 1).val < win1_4.index _ (1 : Fin 2) * 128 + 128
    rw [o1]; omega

/-- THE ARRAY after the region: `layerPlain` of the arrays the region was entered with. -/
theorem array_eq (c : Dev nD) : (dat1 V c).arrAt 4 cfg1.N = layerPlain (V c main_v41) (V c main_v17) (V c main_arg5) (V c main_v42) :=
  (dat1 V c).arrAt_eq_of_cover 4 _ (fun t _ => flushed_eq V c t) covered

end Cert.KernelIdeal.LayerTwo

end
-- ==== Proof.KFold.lean ====
/-
  THE KERNEL PROGRAM'S RESULT AS ONE TERM OF ITS ARGUMENTS.

  The program is: host operations (self loops appended to the two edge-index vectors; the out- and in-degrees by a scatter-add of
  ones; their clamped inverse square roots as columns; the features scaled by the source factor, gathered along the source
  indices and scatter-added along the destination indices), the first layer's region, host operations (the first layer's output
  gathered and scatter-added the same way), the second layer's region. Read back from the result buffer to the launch memory:
  the second region leaves `layerPlain` of its entry arrays; those are the aggregate of the first region's output, a degree
  column and two arguments; the first region leaves `layerScaled` of its entry arrays, which the first stretch of host
  operations computed from the arguments. Buffers that no operation and no region writes are read through unchanged.
-/
import proofs.«128408_j52501680226728_1_alg».proof.Proof.KLayer1
import proofs.«128408_j52501680226728_1_alg».proof.Proof.KLayer2
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Fold

open Cert.KernelIdeal Cert.KernelIdeal.Gen

/-! ## The host stretches as functions -/

/-- An edge-index vector with the self loops 0 … 99999 appended. -/
def selfLoops (a : Vec Ideal S1600000 .i32) : Vec Ideal S1700000 .i32 :=
  concatenate S1700000 0 [⟨S1600000, a⟩, ⟨S100000, iotaInDim S100000 32 0⟩] Gen.concatenates_S1600000_S100000_S1700000_d0

/-- The degree factor of every node: the number of edges whose index is the node (a scatter-add of ones), clamped below
    at 1, to the power -1/2. -/
def degreeFactor (s : Vec Ideal S1700000 .i32) : FVec Ideal S100000 .f32 :=
  Host.rsqrt (maximumf
    (Host.scatterAdd scatter_S100000_S1700000x1_S1700000_n_0_0_1
      (broadcastInDim S100000 ![] Gen.bcast_S_S100000 (constant S_ .f32 0x00000000#32))
      (broadcastInDim S1700000x1 ![0] Gen.bcast_S1700000_S1700000x1_0 s)
      (broadcastInDim S1700000 ![] Gen.bcast_S_S1700000 (constant S_ .f32 0x3F800000#32)))
    (broadcastInDim S100000 ![] Gen.bcast_S_S100000 (constant S_ .f32 0x3F800000#32)))

/-- The neighbour sum: row d(e) of the result collects row s(e) of h over all edges e (negative source indices wrapped by
    the number of nodes first, as jnp indexing does). -/
def aggregate (s d : Vec Ideal S1700000 .i32) (h : FVec Ideal S100000x128 .f32) : FVec Ideal S100000x128 .f32 :=
  Host.scatterAdd scatter_S100000x128_S1700000x1_S1700000x128_1_0_0_1
    (broadcastInDim S100000x128 ![] Gen.bcast_S_S100000x128 (constant S_ .f32 0x00000000#32))
    (broadcastInDim S1700000x1 ![0] Gen.bcast_S1700000_S1700000x1_0 d)
    (Host.gather gather_S100000x128_S1700000x1_S1700000x128_1_0_n_n_0_1_1128 h
      (broadcastInDim S1700000x1 ![0] Gen.bcast_S1700000_S1700000x1_0
        (select (cmpi .slt s (broadcastInDim S1700000 ![] Gen.bcast_S_S1700000 (constantI S_ 32 0#32)))
          (addi s (broadcastInDim S1700000 ![] Gen.bcast_S_S1700000 (constantI S_ 32 100000#32))) s)))

/-- The whole network on the kernel program's side, as one function of the seven arguments. -/
def network (x : FVec Ideal S100000x128 .f32) (src dst : Vec Ideal S1600000 .i32) (w1 : FVec Ideal S128x128 .f32)
    (b1 : FVec Ideal S128 .f32) (w2 : FVec Ideal S128x128 .f32) (b2 : FVec Ideal S128 .f32) : FVec Ideal S100000x128 .f32 :=
  let s := selfLoops src
  let d := selfLoops dst
  let nout : FVec Ideal S100000x1 .f32 := shapeCast S100000x1 (degreeFactor s) Gen.shapeCasts_S100000_S100000x1
  let nin : FVec Ideal S100000x1 .f32 := shapeCast S100000x1 (degreeFactor d) Gen.shapeCasts_S100000_S100000x1
  let h1 := LayerOne.layerScaled
    (aggregate s d (mulf x (broadcastInDim S100000x128 ![0, 1] Gen.bcast_S100000x1_S100000x128_0_1 nout)))
    nin nout w1 (shapeCast S1x128 b1 Gen.shapeCasts_S128_S1x128)
  LayerTwo.layerPlain (aggregate s d h1) nin w2 (shapeCast S1x128 b2 Gen.shapeCasts_S128_S1x128)

/-! ## The first stretch of host operations, from any contents `U` -/

section Stretches

variable (U : Valuation τ sig (Elt Ideal))

theorem ops0_v1 : after hostOps0 U (Proc.devRef .tc main_v1) = selfLoops (U (Proc.devRef .tc main_arg1)) := by
  after_results_simp <;> rfl
theorem ops0_v2 : after hostOps0 U (Proc.devRef .tc main_v2) = selfLoops (U (Proc.devRef .tc main_arg2)) := by
  after_results_simp <;> rfl
theorem ops0_v13 : after hostOps0 U (Proc.devRef .tc main_v13)
    = shapeCast S100000x1 (degreeFactor (selfLoops (U (Proc.devRef .tc main_arg1)))) Gen.shapeCasts_S100000_S100000x1 := by
  after_results_simp <;> rfl
theorem ops0_v17 : after hostOps0 U (Proc.devRef .tc main_v17)
    = shapeCast S100000x1 (degreeFactor (selfLoops (U (Proc.devRef .tc main_arg2)))) Gen.shapeCasts_S100000_S100000x1 := by
  after_results_simp <;> rfl
theorem ops0_v29 : after hostOps0 U (Proc.devRef .tc main_v29)
    = aggregate (selfLoops (U (Proc.devRef .tc main_arg1))) (selfLoops (U (Proc.devRef .tc main_arg2)))
        (mulf (U (Proc.devRef .tc main_arg0)) (broadcastInDim S100000x128 ![0, 1] Gen.bcast_S100000x1_S100000x128_0_1
          (shapeCast S100000x1 (degreeFactor (selfLoops (U (Proc.devRef .tc main_arg1)))) Gen.shapeCasts_S100000_S100000x1))) := by
  after_results_simp <;> rfl
theorem ops0_v30 : after hostOps0 U (Proc.devRef .tc main_v30)
    = shapeCast S1x128 (U (Proc.devRef .tc main_arg4)) Gen.shapeCasts_S128_S1x128 := by
  after_results_simp <;> rfl
theorem ops0_arg3 : after hostOps0 U (Proc.devRef .tc main_arg3) = U (Proc.devRef .tc main_arg3) := by
  after_results_simp <;> rfl
theorem ops0_arg5 : after hostOps0 U (Proc.devRef .tc main_arg5) = U (Proc.devRef .tc main_arg5) := by
  after_results_simp <;> rfl
theorem ops0_arg6 : after hostOps0 U (Proc.devRef .tc main_arg6) = U (Proc.devRef .tc main_arg6) := by
  after_results_simp <;> rfl

/-! ## The second stretch -/

theorem ops1_v41 : after hostOps1 U (Proc.devRef .tc main_v41)
    = aggregate (U (Proc.devRef .tc main_v1)) (U (Proc.devRef .tc main_v2)) (U (Proc.devRef .tc main_v31)) := by
  after_results_simp <;> rfl
theorem ops1_v42 : after hostOps1 U (Proc.devRef .tc main_v42)
    = shapeCast S1x128 (U (Proc.devRef .tc main_arg6)) Gen.shapeCasts_S128_S1x128 := by
  after_results_simp <;> rfl
theorem ops1_v17 : after hostOps1 U (Proc.devRef .tc main_v17) = U (Proc.devRef .tc main_v17) := by
  after_results_simp <;> rfl
theorem ops1_arg5 : after hostOps1 U (Proc.devRef .tc main_arg5) = U (Proc.devRef .tc main_arg5) := by
  after_results_simp <;> rfl

end Stretches

/-! ## The run's boundaries, read back -/

variable (m : (ℓ : Loc nD τ sig) → Buf (Elt Ideal) ℓ) (ρ : Dev nD → PrngReg)

/-- The source and destination indices with self loops, the two degree columns and the first layer's output, of the launch
    memory. -/
abbrev srcL (c : Dev nD) : Vec Ideal S1700000 .i32 := selfLoops (m ((c : Thread nD τ).loc main_arg1))
abbrev dstL (c : Dev nD) : Vec Ideal S1700000 .i32 := selfLoops (m ((c : Thread nD τ).loc main_arg2))
abbrev nOut (c : Dev nD) : FVec Ideal S100000x1 .f32 := shapeCast S100000x1 (degreeFactor (srcL m c)) Gen.shapeCasts_S100000_S100000x1
abbrev nIn (c : Dev nD) : FVec Ideal S100000x1 .f32 := shapeCast S100000x1 (degreeFactor (dstL m c)) Gen.shapeCasts_S100000_S100000x1
abbrev hidden (c : Dev nD) : FVec Ideal S100000x128 .f32 :=
  LayerOne.layerScaled
    (aggregate (srcL m c) (dstL m c)
      (mulf (m ((c : Thread nD τ).loc main_arg0)) (broadcastInDim S100000x128 ![0, 1] Gen.bcast_S100000x1_S100000x128_0_1 (nOut m c))))
    (nIn m c) (nOut m c) (m ((c : Thread nD τ).loc main_arg3))
    (shapeCast S1x128 (m ((c : Thread nD τ).loc main_arg4)) Gen.shapeCasts_S128_S1x128)

/-- After the first region its output array holds the first layer of what the first stretch computed. -/
theorem W2_v31 (c : Dev nD) : W2 m ρ c (Proc.devRef .tc main_v31) = hidden m c := by
  rw [show W2 m ρ c (Proc.devRef .tc main_v31) = (dat0 (V1 m ρ) c).arrAt 5 cfg0.N from W2_arr m ρ c 5,
    LayerOne.array_eq (V1 m ρ) c]
  show LayerOne.layerScaled (after hostOps0 (W0 m ρ c) (Proc.devRef .tc main_v29))
    (after hostOps0 (W0 m ρ c) (Proc.devRef .tc main_v17)) (after hostOps0 (W0 m ρ c) (Proc.devRef .tc main_v13))
    (after hostOps0 (W0 m ρ c) (Proc.devRef .tc main_arg3)) (after hostOps0 (W0 m ρ c) (Proc.devRef .tc main_v30)) = _
  rw [ops0_v29, ops0_v17, ops0_v13, ops0_arg3, ops0_v30]

/-- The first region writes neither index vector … -/
theorem W2_v1 (c : Dev nD) : W2 m ρ c (Proc.devRef .tc main_v1) = srcL m c :=
  (W2_of_ne m ρ c main_v1 (by decide)).trans (ops0_v1 (W0 m ρ c))
theorem W2_v2 (c : Dev nD) : W2 m ρ c (Proc.devRef .tc main_v2) = dstL m c :=
  (W2_of_ne m ρ c main_v2 (by decide)).trans (ops0_v2 (W0 m ρ c))
/-- … nor the second layer's weights and bias … -/
theorem W2_arg5 (c : Dev nD) : W2 m ρ c (Proc.devRef .tc main_arg5) = m ((c : Thread nD τ).loc main_arg5) :=
  (W2_of_ne m ρ c main_arg5 (by decide)).trans (ops0_arg5 (W0 m ρ c))
theorem W2_arg6 (c : Dev nD) : W2 m ρ c (Proc.devRef .tc main_arg6) = m ((c : Thread nD τ).loc main_arg6) :=
  (W2_of_ne m ρ c main_arg6 (by decide)).trans (ops0_arg6 (W0 m ρ c))
/-- … and it only reads the destination-degree column. -/
theorem W2_v17 (c : Dev nD) : W2 m ρ c (Proc.devRef .tc main_v17) = nIn m c :=
  (W2_arr m ρ c 1).trans (((dat0 (V1 m ρ) c).arrAt_in 1 rfl _).trans ((A_eq0 (V1 m ρ) c 1).trans (ops0_v17 (W0 m ρ c))))

/-- THE RESULT BUFFER after the run: the network of the launch memory's arguments. -/
theorem result_eq (c : Dev nD) :
    W4 m ρ c (Proc.devRef .tc main_v43)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [show W4 m ρ c (Proc.devRef .tc main_v43) = (dat1 (V3 m ρ) c).arrAt 4 cfg1.N from W4_arr m ρ c 4,
    LayerTwo.array_eq (V3 m ρ) c]
  show LayerTwo.layerPlain (after hostOps1 (W2 m ρ c) (Proc.devRef .tc main_v41))
    (after hostOps1 (W2 m ρ c) (Proc.devRef .tc main_v17)) (after hostOps1 (W2 m ρ c) (Proc.devRef .tc main_arg5))
    (after hostOps1 (W2 m ρ c) (Proc.devRef .tc main_v42)) = _
  rw [ops1_v41, ops1_v17, ops1_arg5, ops1_v42, W2_v1, W2_v2, W2_v31, W2_v17, W2_arg5, W2_arg6]
  rfl

end Cert.KernelIdeal.Fold

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.Bridge.lean ====
/-
  THE TWO PROGRAMS COMPUTE ONE FUNCTION.

  Both programs build the same graph convolution from the same arguments: self loops appended, the two degree-factor columns, and
  twice "scale the rows by the source factor, sum the rows of every node's in-neighbours, scale by the destination factor,
  multiply by the weights, add the bias". The reference does every step as an operation on whole arrays; the kernel program does
  the dense part of each layer block by block, which the two layer modules have already read as the same whole-array operations.
  What is left differs only in how a vector is laid out as a matrix with one unit axis: the kernel program reshapes a vector of
  100000 entries to a 100000 x 1 column and a vector of 128 entries to a 1 x 128 row, the reference broadcasts it along the other
  axis. These are the same array, so the two terms agree operation by operation.
-/
import proofs.«128408_j52501680226728_1_alg».proof.Proof.KFold
import proofs.«128408_j52501680226728_1_alg».proof.Proof.LibLayout
import proofs.«128408_j52501680226728_1_alg».proof.Proof.Gen.ReferenceIdeal.Run

set_option maxRecDepth 16384

noncomputable section

open Idealize.ShloMosaic Idealize.ShloMosaic.TcCoe Idealize.SL.Sem

namespace Cert.Proof.Bridge

/-- A vector of 100000 entries as a 100000 x 1 column, and one of 128 entries as a 1 x 128 row, by a broadcast. -/
theorem bcastCol : Cert.KernelIdeal.S100000.BroadcastsInDim Cert.KernelIdeal.S100000x1 (![0] : Fin 1 → Fin Cert.KernelIdeal.S100000x1.rank) := by decide
theorem bcastRow : Cert.KernelIdeal.S128.BroadcastsInDim Cert.KernelIdeal.S1x128 (![1] : Fin 1 → Fin Cert.KernelIdeal.S1x128.rank) := by decide

/-- The reference's result term, of arguments that agree with the kernel program's, is the kernel program's network. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v53 m' c
      = Cert.KernelIdeal.Fold.network (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  unfold Cert.ReferenceIdeal.Value.res_main_v53
  rw [h0, h1, h2, h3, h4, h5, h6]
  unfold Cert.KernelIdeal.Fold.network
  dsimp only
  rw [Cert.Proof.Layout.reshape_col_eq_broadcastInDim _ _ bcastCol, Cert.Proof.Layout.reshape_col_eq_broadcastInDim _ _ bcastCol,
    Cert.Proof.Layout.reshape_row_eq_broadcastInDim _ _ bcastRow, Cert.Proof.Layout.reshape_row_eq_broadcastInDim _ _ bcastRow]
  rfl

end Cert.Proof.Bridge

end
-- ==== Proof.lean ====
/-
  A two-layer graph convolution on 100000 nodes with 128 features: the kernel program against its whole-array reference, over
  the extended reals.

  Both programs append a self loop to every node, take the out- and in-degree of each node (clamped below at 1) to the power
  -1/2, and apply twice: scale each node's row by its source factor, sum over every node the rows of its in-neighbours, scale by
  the destination factor, multiply by the layer's weight matrix and add its bias. The kernel program computes the dense part of
  each layer in 25 blocks of 4000 rows (the first layer's block also applies the next layer's source scaling); the reference does
  it on the whole array. Row by row the two are the same sum over the 128 input features, in the same order, so the results are
  equal entry by entry with no algebra beyond reading both sides at an index; the precondition is not used.

  The three frames are the generated ones (the reference's is its run with the result dropped). Nothing was rewritten by the
  idealization, so `preserves` is trivial. For `algebraic` the kernel program's run names its result buffer after the last
  region, that buffer is read back to `Fold.network` of the arguments, and the reference's result term is the same function.
-/
import proofs.«128408_j52501680226728_1_alg».proof.Defs
import proofs.«128408_j52501680226728_1_alg».proof.Proof.Gen.Kernel
import proofs.«128408_j52501680226728_1_alg».proof.Proof.Gen.Kernel.Frame
import proofs.«128408_j52501680226728_1_alg».proof.Proof.Gen.KernelIdeal
import proofs.«128408_j52501680226728_1_alg».proof.Proof.Gen.KernelIdeal.Frame
import proofs.«128408_j52501680226728_1_alg».proof.Proof.Gen.ReferenceIdeal
import proofs.«128408_j52501680226728_1_alg».proof.Proof.Gen.ReferenceIdeal.Run
import proofs.«128408_j52501680226728_1_alg».proof.Proof.Gen.Pre_finite_inputs
import proofs.«128408_j52501680226728_1_alg».proof.Proof.KRun
import proofs.«128408_j52501680226728_1_alg».proof.Proof.KFold
import proofs.«128408_j52501680226728_1_alg».proof.Proof.Bridge
import Idealize.ShloMosaic.Adequacy
import Idealize.ShloMosaic.Init

noncomputable section

namespace Cert.Proof

open Idealize.ShloMosaic Idealize.SL.Sem

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of those arguments in their result. -/
theorem algebraic : Cert.algebraic_KernelIdeal_ReferenceIdeal := by
  intro m ρ m' ρ' _ hagree
  refine ⟨fun c => Cert.KernelIdeal.Fold.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Fold.result_eq m ρ c), (h c).2⟩)
      (Cert.KernelIdeal.GenP.run_main (F := Ideal) m ρ)
  · exact (θ_run Cert.ReferenceIdeal.defs _ _).mono
      (fun _ h c => ⟨(h c).1.trans (Cert.Proof.Bridge.reference_eq m m' c (hagree c).1 (hagree c).2.1 (hagree c).2.2.1
          (hagree c).2.2.2.1 (hagree c).2.2.2.2.1 (hagree c).2.2.2.2.2.1 (hagree c).2.2.2.2.2.2), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
